-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x256x3 : Shape := ⟨3, ![1, 256, 3]⟩
abbrev S1x8192x3 : Shape := ⟨3, ![1, 8192, 3]⟩
abbrev S1x1x256 : Shape := ⟨3, ![1, 1, 256]⟩
abbrev S1x1x8192 : Shape := ⟨3, ![1, 1, 8192]⟩
abbrev S8192 : Shape := ⟨1, ![8192]⟩
abbrev S256x3 : Shape := ⟨2, ![256, 3]⟩
abbrev S8192x3 : Shape := ⟨2, ![8192, 3]⟩
abbrev S256 : Shape := ⟨1, ![256]⟩
abbrev S256x1 : Shape := ⟨2, ![256, 1]⟩
abbrev S1x8192 : Shape := ⟨2, ![1, 8192]⟩
abbrev S256x8192 : Shape := ⟨2, ![256, 8192]⟩
abbrev S4x8192 : Shape := ⟨2, ![4, 8192]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x8192x3, .f32⟩
  | .local _ .vmem, ⟨3, _⟩ => ⟨S1x8192x3, .f32⟩
  | .local _ .vmem, ⟨4, _⟩ => ⟨S1x1x256, .f32⟩
  | .local _ .vmem, ⟨5, _⟩ => ⟨S1x1x256, .f32⟩
  | .local _ .vmem, ⟨6, _⟩ => ⟨S1x1x8192, .f32⟩
  | .local _ .vmem, ⟨7, _⟩ => ⟨S1x1x8192, .f32⟩
  | .local _ .vmem, ⟨8, _⟩ => ⟨S8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8192_S8192_0 : ∀ a, (![0] : Fin 1 → Nat) a + S8192.size a ≤ S8192.size a
  h_S8192 : 0 < S8192.numel
  shapeCasts_S8192_S8192 : S8192.ShapeCasts S8192
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  reduces_S256x3_S256 : S256x3.Reduces [1] S256
  shapeCasts_S256_S256x1 : S256.ShapeCasts S256x1
  reduces_S8192x3_S8192 : S8192x3.Reduces [1] S8192
  shapeCasts_S8192_S1x8192 : S8192.ShapeCasts S1x8192
  broadcasts_S256x1_S256x8192 : S256x1.Broadcasts S256x8192
  broadcasts_S1x8192_S256x8192 : S1x8192.Broadcasts S256x8192
  reduces_S256x8192_S256 : S256x8192.Reduces [1] S256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x1x256 : S256.ShapeCasts S1x1x256
  reduces_S256x8192_S8192 : S256x8192.Reduces [0] S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S256x3_S8192x3_S256x8192_1_1_0_0_n_n_wf : DotDims.WF S256x3 S8192x3 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x8192x3.size a
  hwx0_0 : ∀ i : grid0.Coords, EltTy.bits .f32 = 32 ∨ (Rect.block (s := S4x8192x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x8192.size a
  hwx0_2 : ∀ i : grid0.Coords, EltTy.bits .f32 = 32 ∨ (Rect.block (s := S4x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S256x3_S8192x3_S256x8192_1_1_0_0_n_n : DotDims S256x3 S8192x3 S256x8192 where
  lhsContracting := [1]
  rhsContracting := [1]
  lhsNonContracting := [0]
  rhsNonContracting := [0]
  lhsBatch := []
  rhsBatch := []
  wf := dot_S256x3_S8192x3_S256x8192_1_1_0_0_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The specification both programs are read against, over the extended reals, index by index.

  For two clouds of 8192 points in three coordinates, four batches of each (`x`, `y` of shape [4, 8192, 3]):
  the squared distance of point `p` of `x` and point `q` of `y` in batch `b`, in the expanded form both programs
  compute, `(|x_p|² + |y_q|²) - 2 · ⟨x_p, y_q⟩`; for every point of `x` the least such distance over all `q` (`rowMin`),
  for every point of `y` the least over all `p` (`colMin`), every minimum a fold of `min` starting from the value of the
  pattern of +∞ (which is never evaluated: the same word on both sides); and the two means added (`tail`).

  The only law used between the two programs is that a minimum over the 8192 rows can be taken 256 rows at a time,
  each part folded into a running minimum that started from the same value (`acc_step`): `min` is commutative,
  associative and idempotent, so nothing depends on the points being finite.
-/
import Idealize.ShloMosaic.PureOps.Ideal
import Idealize.ShloMosaic.PureOps.Ideal.Laws
import Idealize.ShloMosaic.Lib.ValueIdx
import Mathlib.Data.Finset.Fold

noncomputable section

namespace Cert.Chamfer

open Idealize.ShloMosaic Idealize.ShloMosaic.ValueIdx

/-- The shape of each cloud: batch, point, coordinate. -/
abbrev Pts : Shape := ⟨3, ![4, 8192, 3]⟩
/-- The shape of each array of minima: batch, point. -/
abbrev Mins : Shape := ⟨2, ![4, 8192]⟩
/-- A running column minimum of one batch: one entry per point of `y`. -/
abbrev Acc : Shape := ⟨1, ![8192]⟩
/-- Rank zero. -/
abbrev Sc : Shape := ⟨0, ![]⟩

/-- The value every minimum starts from: the pattern of +∞, as a value (never evaluated). -/
abbrev top : EReal := Ideal.ofBits .f32 0x7F800000#32
/-- The value of the pattern of 2.0 (never evaluated). -/
abbrev two : EReal := Ideal.ofBits .f32 0x40000000#32

/-- The squared norm of point `n` of batch `b`. -/
def sqn (a : Pts.Idx → EReal) (b : Fin 4) (n : Fin 8192) : EReal :=
  ∑ k : Fin 3, a (ix3 b n k) * a (ix3 b n k)

/-- The inner product of point `p` of `x` and point `q` of `y` in batch `b`. -/
def dot (x y : Pts.Idx → EReal) (b : Fin 4) (p q : Fin 8192) : EReal :=
  ∑ k : Fin 3, x (ix3 b p k) * y (ix3 b q k)

/-- The squared distance in its expanded form. -/
def dist (x y : Pts.Idx → EReal) (b : Fin 4) (p q : Fin 8192) : EReal :=
  (sqn x b p + sqn y b q) - two * dot x y b p q

/-- For each point of `x`: the least distance to a point of `y`. -/
def rowMin (x y : Pts.Idx → EReal) : Mins.Idx → EReal :=
  fun j => (Finset.univ : Finset (Fin 8192)).fold min top (fun q => dist x y (j 0) (j 1) q)

/-- For each point of `y`: the least distance to a point of `x`. -/
def colMin (x y : Pts.Idx → EReal) : Mins.Idx → EReal :=
  fun j => (Finset.univ : Finset (Fin 8192)).fold min top (fun p => dist x y (j 0) p (j 1))

/-- The column minimum of batch `b` over the first `n` points of `x` only. -/
def accUpTo (x y : Pts.Idx → EReal) (b : Fin 4) (n : ℕ) : Acc.Idx → EReal :=
  fun j => (Finset.univ.filter fun p : Fin 8192 => p.val < n).fold min top (fun p => dist x y b p (j 0))

/-- Over no points it is the starting value. -/
theorem accUpTo_zero (x y : Pts.Idx → EReal) (b : Fin 4) (j : Acc.Idx) : accUpTo x y b 0 j = top := by
  unfold accUpTo
  rw [Finset.filter_false_of_mem (fun p _ => Nat.not_lt_zero _)]
  rfl

/-- Over all the points it is the column minimum. -/
theorem accUpTo_full (x y : Pts.Idx → EReal) (b : Fin 4) (q : Fin 8192) :
    accUpTo x y b 8192 (ix1 q) = colMin x y (ix2 b q) := by
  unfold accUpTo colMin
  rw [Finset.filter_true_of_mem (fun p _ => p.isLt)]

/-- THE LAW: the minimum over the first `256 (i + 1)` points is the minimum over the first `256 i` and the minimum
    over the next 256, each started from the same value. -/
theorem acc_step (x y : Pts.Idx → EReal) (b : Fin 4) (i : ℕ) (hi : i < 32) (j : Acc.Idx) :
    min (accUpTo x y b (256 * i) j)
        ((Finset.univ : Finset (Fin 256)).fold min top
          (fun r => dist x y b ⟨256 * i + r.val, by have := r.isLt; omega⟩ (j 0)))
      = accUpTo x y b (256 * (i + 1)) j := by
  unfold accUpTo
  refine le_antisymm ?_ ?_
  · rw [Finset.le_fold_min]
    refine ⟨(min_le_left _ _).trans ((Finset.fold_min_le _).2 (Or.inl le_rfl)), fun p hp => ?_⟩
    have hp' : p.val < 256 * (i + 1) := (Finset.mem_filter.1 hp).2
    by_cases h : p.val < 256 * i
    · exact (min_le_left _ _).trans ((Finset.fold_min_le _).2 (Or.inr ⟨p, Finset.mem_filter.2 ⟨Finset.mem_univ _, h⟩, le_rfl⟩))
    · have e : (⟨256 * i + (p.val - 256 * i), by have := p.isLt; omega⟩ : Fin 8192) = p := Fin.ext (by simp only; omega)
      exact (min_le_right _ _).trans ((Finset.fold_min_le _).2 (Or.inr ⟨⟨p.val - 256 * i, by omega⟩, Finset.mem_univ _,
        le_of_eq (congrArg (fun p' => dist x y b p' (j 0)) e)⟩))
  · rw [le_min_iff, Finset.le_fold_min, Finset.le_fold_min]
    refine ⟨⟨(Finset.fold_min_le _).2 (Or.inl le_rfl), fun p hp => ?_⟩, (Finset.fold_min_le _).2 (Or.inl le_rfl), fun r _ => ?_⟩
    · have hp' : p.val < 256 * i := (Finset.mem_filter.1 hp).2
      exact (Finset.fold_min_le _).2 (Or.inr ⟨p, Finset.mem_filter.2 ⟨Finset.mem_univ _, by omega⟩, le_rfl⟩)
    · exact (Finset.fold_min_le _).2 (Or.inr ⟨_, Finset.mem_filter.2 ⟨Finset.mem_univ _, by have := r.isLt; simp only; omega⟩, le_rfl⟩)

/-- The two means added: what both programs do with the two arrays of minima (each summed over every entry from the
    value of the zero pattern, divided by the value of the pattern of 32768.0, and the two quotients added). -/
def tail (hred : Mins.ReducesTo [0, 1] Sc) (hsc : 0 < Sc.numel) (a b : FVec Ideal Mins .f32) : FVec Ideal Sc .f32 :=
  addf (F := Ideal)
    (Host.divf (F := Ideal) (Host.reduceAdd (F := Ideal) a (constant (F := Ideal) Sc .f32 0x00000000#32) hred hsc)
      (constant (F := Ideal) Sc .f32 0x47000000#32))
    (Host.divf (F := Ideal) (Host.reduceAdd (F := Ideal) b (constant (F := Ideal) Sc .f32 0x00000000#32) hred hsc)
      (constant (F := Ideal) Sc .f32 0x47000000#32))

end Cert.Chamfer

end
-- ==== Proof.RefValue.lean ====
/-
  The reference, read against the specification: at the ideal values its two arrays of minima are `rowMin` and
  `colMin` of the two clouds, and its result is `tail` of them.

  The reference builds its array of distances from three pieces: the squared norm of each point of `x`, summed over
  the coordinate axis and spread along `q`; the squared norm of each point of `y`, spread along `n`; and twice the
  contraction of `x` with `y` over the coordinate axis. Read at `(b, n, q)`, each piece is a sum over the three
  coordinates `k` of products of entries at an index whose coordinates are those of `(b, n, k)` or of `(b, q, k)`.
  Each sum starts from the value of the zero pattern, which is the additive identity and drops out; the factor two stays
  the value of its pattern, the one the specification names, and is never evaluated. So the entry is `dist` exactly as
  the specification writes it: `(|x_n|² + |y_q|²) - 2 · ⟨x_n, y_q⟩` (`dist_eq`).

  A minimum over one axis of that array is, at each kept index, the fold of `min` from the value of the pattern of +∞
  over the coordinates of the dropped axis: `min` is commutative and associative, so the order in which the entries
  are met does not matter. The index above `(b, n)` with `q` inserted on the last axis is `(b, n, q)`, and the one
  above `(b, q)` with `p` inserted on the middle axis is `(b, p, q)`; term by term the two folds are those of
  `rowMin` and `colMin` (`rowMin_eq`, `colMin_eq`). What the reference then does with the two arrays (each summed
  over every entry from zero, divided by the same constant, the quotients added) is `tail` word for word (`result_eq`).
-/
import proofs.«125143_j65266323030088_1_alg».proof.Defs
import proofs.«125143_j65266323030088_1_alg».proof.Proof.Gen.ReferenceIdeal.Run
import proofs.«125143_j65266323030088_1_alg».proof.Proof.Gen.ReferenceIdeal.Read
import proofs.«125143_j65266323030088_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Chamfer
open Idealize.ShloMosaic Idealize.ShloMosaic.ValueIdx

/-- Reading the squared norm of `x` back through the two broadcasts and the sum over the coordinate axis lands on
    coordinate `k` of point `n` of batch `b`. -/
private theorem idx_sqx (b : Fin 4) (n q : Fin 8192) (k : Fin 3) :
    idx_main_v1 (idx_main_v5 (idx_main_v7 (ix3 b n q))) k = ix3 b n k :=
  funext fun a => Fin.ext (by match a with | ⟨0, _⟩ => rfl | ⟨1, _⟩ => rfl | ⟨2, _⟩ => rfl)

/-- The same for `y`: coordinate `k` of point `q` of batch `b`. -/
private theorem idx_sqy (b : Fin 4) (n q : Fin 8192) (k : Fin 3) :
    idx_main_v3 (idx_main_v6 (idx_main_v8 (ix3 b n q))) k = ix3 b q k :=
  funext fun a => Fin.ext (by match a with | ⟨0, _⟩ => rfl | ⟨1, _⟩ => rfl | ⟨2, _⟩ => rfl)

/-- The contraction reads `x` at point `n`. -/
private theorem idx_dotx (b : Fin 4) (n q : Fin 8192) (k : Fin 3) :
    lidx_main_v4 (ix3 b n q) k = ix3 b n k :=
  funext fun a => Fin.ext (by match a with | ⟨0, _⟩ => rfl | ⟨1, _⟩ => rfl | ⟨2, _⟩ => rfl)

/-- The contraction reads `y` at point `q`. -/
private theorem idx_doty (b : Fin 4) (n q : Fin 8192) (k : Fin 3) :
    ridx_main_v4 (ix3 b n q) k = ix3 b q k :=
  funext fun a => Fin.ext (by match a with | ⟨0, _⟩ => rfl | ⟨1, _⟩ => rfl | ⟨2, _⟩ => rfl)

/-- The reference's array of distances at `(b, n, q)` is the squared distance in its expanded form. -/
theorem dist_eq (x0 x1 : FVec Ideal S4x8192x3 .f32) (b : Fin 4) (n q : Fin 8192) :
    val_main_v12 (F := Ideal) x0 x1 (ix3 b n q) = dist x0 x1 b n q := by
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [idx_sqx, idx_sqy, idx_dotx, idx_doty, val_main_v0_apply, val_main_v2_apply, val_main_cst_apply,
    val_main_cst_0_apply, val_main_cst_1_apply, Ideal.ofBits_def, Ideal.addf_def, Ideal.subf_def, Ideal.mulf_def,
    Ideal.ofBits_zero_f32, zero_add]
  rfl

/-- Over the last axis the index of the distances above `(b, n)` with `q` inserted is `(b, n, q)`. -/
private theorem lift_row (b : Fin 4) (n q : Fin 8192) :
    (by decide : S4x8192x8192.Reduces [2] S4x8192).lift (ix2 b n) q = ix3 b n q :=
  funext fun a => Fin.ext (by match a with | ⟨0, _⟩ => rfl | ⟨1, _⟩ => rfl | ⟨2, _⟩ => rfl)

/-- Over the middle axis the index above `(b, q)` with `p` inserted is `(b, p, q)`. -/
private theorem lift_col (b : Fin 4) (q p : Fin 8192) :
    (by decide : S4x8192x8192.Reduces [1] S4x8192).lift (ix2 b q) p = ix3 b p q :=
  funext fun a => Fin.ext (by match a with | ⟨0, _⟩ => rfl | ⟨1, _⟩ => rfl | ⟨2, _⟩ => rfl)

/-- Its minimum over the last axis is `rowMin`. -/
theorem rowMin_eq (x0 x1 : FVec Ideal S4x8192x3 .f32) : val_main_v13 (F := Ideal) x0 x1 = rowMin x0 x1 := by
  funext j
  obtain ⟨b, n, rfl⟩ : ∃ b n, j = ix2 b n := ⟨_, _, eq_ix2 j⟩
  unfold val_main_v13 rowMin
  rw [Host.reduce_eq_fold_single FloatOps.minimumf _ _ reducesTo_S4x8192x8192_S4x8192_d2 (by decide) h_S_]
  refine Finset.fold_congr fun (q : Fin 8192) _ => ?_
  show val_main_v12 (F := Ideal) x0 x1 ((by decide : S4x8192x8192.Reduces [2] S4x8192).lift (ix2 b n) q) = dist x0 x1 b n q
  rw [lift_row, dist_eq]

/-- Its minimum over the middle axis is `colMin`. -/
theorem colMin_eq (x0 x1 : FVec Ideal S4x8192x3 .f32) : val_main_v14 (F := Ideal) x0 x1 = colMin x0 x1 := by
  funext j
  obtain ⟨b, q, rfl⟩ : ∃ b q, j = ix2 b q := ⟨_, _, eq_ix2 j⟩
  unfold val_main_v14 colMin
  rw [Host.reduce_eq_fold_single FloatOps.minimumf _ _ reducesTo_S4x8192x8192_S4x8192_d1 (by decide) h_S_]
  refine Finset.fold_congr fun (p : Fin 8192) _ => ?_
  show val_main_v12 (F := Ideal) x0 x1 ((by decide : S4x8192x8192.Reduces [1] S4x8192).lift (ix2 b q) p) = dist x0 x1 b p q
  rw [lift_col, dist_eq]

/-- The reference's result is the two means of the minima, added. -/
theorem result_eq (x0 x1 : FVec Ideal S4x8192x3 .f32) :
    val_main_v19 (F := Ideal) x0 x1 = tail reducesTo_S4x8192_S_d0_1 h_S_ (rowMin x0 x1) (colMin x0 x1) := by
  rw [← rowMin_eq, ← colMin_eq]
  rfl

end Cert.ReferenceIdeal.RefValue

end
-- ==== Proof.Pieces.lean ====
/-
  What each control case of the kernel body leaves behind, read back as a value (at any float instance).

  The body has three cases over the grid (batch b, row tile i): the first tile of a batch (A) resets the running column
  minimum to the starting value before it folds its own column minima in; a middle tile (B) folds into what the tile
  before left; the last tile (C) does the same and then copies the running minimum out as the batch's column minima.
  In every case the row minima of the tile are stored whole. Each stored block is one payload of the body's loads, and
  the loads read whole buffers: the two input blocks, and the scratch either as found or as just stored.
-/
import proofs.«125143_j65266323030088_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a; rfl
theorem hz3 : (![0, 0, 0] : Fin 3 → Nat) = fun _ => 0 := funext fun a => by fin_cases a <;> rfl

/-! ## Case A: the first tile of a batch -/

/-- The tile's row minima. -/
theorem out_A_2 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : cond0_0 i) (hc1 : ¬cond0_1 i)
    (x0 : Vec F S1x256x3 .f32) (x1 : Vec F S1x8192x3 .f32) :
    out0_A_2 c i a2 h2 a3 h3 a4 h4 a5 h5 a6 h6 hc0 hc1 x0 x1 = k0_pay3 x0 x1 := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, View.ld_unit_zero (S := S1x256x3) hz3, View.ld_unit_zero (S := S1x8192x3) hz3]

/-- The scratch: the starting value everywhere, then the tile's column minima folded in. -/
theorem sout_A_0 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : cond0_0 i) (hc1 : ¬cond0_1 i)
    (x0 : Vec F S1x256x3 .f32) (x1 : Vec F S1x8192x3 .f32) :
    sout0_A_0 c i a2 h2 a3 h3 a4 h4 a5 h5 a6 h6 hc0 hc1 x0 x1 = k0_pay4 x0 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S8192) hz1, View.readCov_unit_zero (S := S8192) _ hz1]
  simp only [View.readAt_eq_ld, h2.read_unread, h3.read_unread, View.ld_unit_zero (S := S1x256x3) hz3, View.ld_unit_zero (S := S1x8192x3) hz3]

/-! ## Case B: a middle tile -/

/-- The tile's row minima. -/
theorem out_B_2 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : ¬cond0_0 i) (hc1 : ¬cond0_1 i)
    (x0 : Vec F S1x256x3 .f32) (x1 : Vec F S1x8192x3 .f32) (xs0 : Vec F S8192 .f32) :
    out0_B_2 c i a2 h2 a3 h3 a4 h4 a5 h5 a6 h6 hc0 hc1 x0 x1 xs0 = k0_pay3 x0 x1 := by
  unfold out0_B_2
  rw [View.read_writes_eq_canon _ _ _ (cover0_B_2 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, h3.read_unread, View.ld_unit_zero (S := S1x256x3) hz3, View.ld_unit_zero (S := S1x8192x3) hz3]

/-- The scratch: the tile's column minima folded into what the tile before left. -/
theorem sout_B_0 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : ¬cond0_0 i) (hc1 : ¬cond0_1 i)
    (x0 : Vec F S1x256x3 .f32) (x1 : Vec F S1x8192x3 .f32) (xs0 : Vec F S8192 .f32) :
    sout0_B_0 c i a2 h2 a3 h3 a4 h4 a5 h5 a6 h6 hc0 hc1 x0 x1 xs0 = k0_pay4 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz1]
  simp only [View.readAt_eq_ld, h2.read_unread, h3.read_unread, h6.read_unread, View.ld_unit_zero (S := S1x256x3) hz3, View.ld_unit_zero (S := S1x8192x3) hz3, View.ld_unit_zero (S := S8192) hz1]

/-! ## Case C: the last tile of a batch -/

/-- The tile's row minima. -/
theorem out_C_2 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : ¬cond0_0 i) (hc1 : cond0_1 i)
    (x0 : Vec F S1x256x3 .f32) (x1 : Vec F S1x8192x3 .f32) (xs0 : Vec F S8192 .f32) :
    out0_C_2 c i a2 h2 a3 h3 a4 h4 a5 h5 a6 h6 hc0 hc1 x0 x1 xs0 = k0_pay3 x0 x1 := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, View.ld_unit_zero (S := S1x256x3) hz3, View.ld_unit_zero (S := S1x8192x3) hz3]

/-- The scratch: the tile's column minima folded into what the tile before left. -/
theorem sout_C_0 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : ¬cond0_0 i) (hc1 : cond0_1 i)
    (x0 : Vec F S1x256x3 .f32) (x1 : Vec F S1x8192x3 .f32) (xs0 : Vec F S8192 .f32) :
    sout0_C_0 c i a2 h2 a3 h3 a4 h4 a5 h5 a6 h6 hc0 hc1 x0 x1 xs0 = k0_pay4 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz1]
  simp only [View.readAt_eq_ld, h2.read_unread, h3.read_unread, h6.read_unread, View.ld_unit_zero (S := S1x256x3) hz3, View.ld_unit_zero (S := S1x8192x3) hz3, View.ld_unit_zero (S := S8192) hz1]

/-- The batch's column minima: the scratch as just stored, re-laid. -/
theorem out_C_3 (c : Dev nD) (i : grid0.Coords) (a2 : Memref sig .tc .vmem S1x256x3 .f32) (h2 : a2.IsWhole) (a3 : Memref sig .tc .vmem S1x8192x3 .f32) (h3 : a3.IsWhole) (a4 : Memref sig .tc .vmem S1x1x256 .f32) (h4 : a4.IsWhole) (a5 : Memref sig .tc .vmem S1x1x8192 .f32) (h5 : a5.IsWhole) (a6 : Memref sig .tc .vmem S8192 .f32) (h6 : a6.IsWhole) (hc0 : ¬cond0_0 i) (hc1 : cond0_1 i)
    (x0 : Vec F S1x256x3 .f32) (x1 : Vec F S1x8192x3 .f32) (xs0 : Vec F S8192 .f32) :
    out0_C_3 c i a2 h2 a3 h3 a4 h4 a5 h5 a6 h6 hc0 hc1 x0 x1 xs0 = k0_pay5 (k0_pay4 x0 x1 xs0) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, h6.read_unread, View.ld_unit_zero (S := S1x256x3) hz3, View.ld_unit_zero (S := S1x8192x3) hz3, View.ld_unit_zero (S := S8192) hz1]
  rw [View.readCov_unit_zero (S := S8192) _ hz1]

end Cert.KernelIdeal.Pieces

end
-- ==== Proof.LibLayoutMin.lean ====
/-
  General lemmas, over any shapes of these forms: three layout operations read at explicit coordinates, and a float
  minimum-reduction over one axis read, at the ideal values, as a fold of `min` over that axis's coordinates.

  A shape cast keeps the row-major position of every entry, so adding a unit axis after a vector's one axis
  (`[a] → [a, 1]`) or two unit axes before it (`[a] → [1, 1, a]`) keeps the entry at `i`; a column `[a, 1]` spread over
  `b` columns has at `(p, c)` the column's entry at `p`. Over the extended reals `min` commutes and associates, so a
  minimum over one axis is the fold of `min`, from the accumulator's value, over the coordinates of that axis with the
  kept coordinates held fixed.
-/
import Idealize.ShloMosaic.Lib.Pipeline.Value
import Idealize.ShloMosaic.Lib.ValueIdx
import Idealize.ShloMosaic.PureOps.Reduce
import Idealize.ShloMosaic.PureOps.Ideal.Laws

noncomputable section

namespace Cert.LibLayoutMin

open Idealize.ShloMosaic Idealize.ShloMosaic.ValueIdx

/-! ## Layout operations read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A minimum over one axis -/

/-- A float `<minimumf>` reduction over one axis, at the ideal values: the fold of `min`, from the accumulator's value,
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits (F := Ideal) φ acc) (src ∘ h.lift j) := by
  rw [multiReduction_minimumf_eq_fold]; exact h.fold_filter_drop_single _ _ src j

end Cert.LibLayoutMin

end
-- ==== Proof.Payload.lean ====
/-
  The kernel body's arithmetic at the ideal values, read at an index: the block of distances between the 256 points
  of `x` a grid point holds and all 8192 points of `y` of its batch; its minimum along each row; its minimum down each
  column folded into the running minimum the body found in its scratch.

  Over the extended reals every operation of the body is its textbook one, so each value is read off coordinate by
  coordinate. Dropping or adding unit axes keeps the row-major position, hence the element: the blocks `[1, 256, 3]`
  and `[1, 8192, 3]` are the matrices of their rows; a vector of 256 row sums laid as a column `[256, 1]` and spread
  over 8192 columns has at `(r, q)` the sum of row `r`; a vector of 8192 row sums laid as a row `[1, 8192]` and spread
  over 256 rows has there the sum of row `q`. A sum over the three coordinates of a point is a sum over `Fin 3`; the
  product of the two matrices contracts that same axis and, accumulated into the zero block (the one pattern that is
  evaluated: its value is `0`, and `0 + s = s`), has at `(r, q)` the inner product `∑ k, x_r[k] * y_q[k]`. So the
  block at `(r, q)` is `(|x_r|² + |y_q|²) - two * ⟨x_r, y_q⟩`, with `two` the value of the pattern the body multiplies
  by, left as it stands. A minimum over one axis is the fold of `min` over that axis's coordinates from the value of
  the accumulator's pattern, again left as it stands (`min` commutes and associates, so the order of the fold is
  immaterial): along the columns for each row, down the rows for each column, the latter then taken against the
  running minimum entry by entry. The two remaining values are a vector re-laid as `[1, 1, 8192]`, which keeps every
  entry, and the starting value spread over 8192 entries.
-/
import proofs.«125143_j65266323030088_1_alg».proof.Proof.Gen.KernelIdeal.Skeleton
import proofs.«125143_j65266323030088_1_alg».proof.Proof.Spec
import proofs.«125143_j65266323030088_1_alg».proof.Proof.LibLayoutMin
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

noncomputable section

namespace Cert.KernelIdeal.Pay

open Cert.KernelIdeal Cert.KernelIdeal.Gen Cert.Chamfer Cert.LibLayoutMin
open Idealize.ShloMosaic Idealize.ShloMosaic.ValueIdx

/-! ## The product of the two blocks -/

/-- The left operand's row is the result's row. -/
theorem lhs_dot_0 (i : S256x8192.Idx) (c : dot_S256x3_S8192x3_S256x8192_1_1_0_0_n_n.contr.Idx) :
    (dot_S256x3_S8192x3_S256x8192_1_1_0_0_n_n.lhsIdx i c 0).val = (i 0).val := by
  unfold DotDims.lhsIdx
  rw [dif_neg (show ¬(0 : Fin S256x3.rank) ∈ dot_S256x3_S8192x3_S256x8192_1_1_0_0_n_n.lhsBatch by decide), dif_pos (show (0 : Fin S256x3.rank) ∈ dot_S256x3_S8192x3_S256x8192_1_1_0_0_n_n.lhsNonContracting by decide)]
  rfl
/-- The left operand's column is the contraction coordinate. -/
theorem lhs_dot_1 (i : S256x8192.Idx) (c : dot_S256x3_S8192x3_S256x8192_1_1_0_0_n_n.contr.Idx) :
    (dot_S256x3_S8192x3_S256x8192_1_1_0_0_n_n.lhsIdx i c 1).val = (c ⟨0, by decide⟩).val :=
  dot_S256x3_S8192x3_S256x8192_1_1_0_0_n_n.lhsIdx_val_of_single rfl i c
/-- The right operand's row is the result's column. -/
theorem rhs_dot_0 (i : S256x8192.Idx) (c : dot_S256x3_S8192x3_S256x8192_1_1_0_0_n_n.contr.Idx) :
    (dot_S256x3_S8192x3_S256x8192_1_1_0_0_n_n.rhsIdx i c 0).val = (i 1).val := by
  unfold DotDims.rhsIdx
  rw [dif_neg (show ¬(0 : Fin S8192x3.rank) ∈ dot_S256x3_S8192x3_S256x8192_1_1_0_0_n_n.rhsBatch by decide), dif_pos (show (0 : Fin S8192x3.rank) ∈ dot_S256x3_S8192x3_S256x8192_1_1_0_0_n_n.rhsNonContracting by decide)]
  rfl
/-- The right operand's column is the contraction coordinate. -/
theorem rhs_dot_1 (i : S256x8192.Idx) (c : dot_S256x3_S8192x3_S256x8192_1_1_0_0_n_n.contr.Idx) :
    (dot_S256x3_S8192x3_S256x8192_1_1_0_0_n_n.rhsIdx i c 1).val = (c ⟨0, by decide⟩).val :=
  dot_S256x3_S8192x3_S256x8192_1_1_0_0_n_n.rhsIdx_val_of_single rfl i c

/-- The product into the zero block, at `(r, q)`: the inner product of row `r` of the left block and row `q` of the
    right one. -/
theorem matmul_rq (A : FVec Ideal S256x3 .f32) (B : FVec Ideal S8192x3 .f32) (r : Fin 256) (q : Fin 8192) :
    matmul (F := Ideal) dot_S256x3_S8192x3_S256x8192_1_1_0_0_n_n none A B (constant (F := Ideal) S256x8192 .f32 0x00000000#32) (ix2 r q)
      = ∑ k : Fin 3, A (ix2 r k) * B (ix2 q k) := by
  simp only [matmul]
  rw [Ideal.matmul_constant_zero_apply, ← Equiv.sum_comp (contrEquiv1 dot_S256x3_S8192x3_S256x8192_1_1_0_0_n_n 3 rfl rfl).symm]
  refine Finset.sum_congr rfl fun k _ => ?_
  have hk := contrEquiv1_symm_val dot_S256x3_S8192x3_S256x8192_1_1_0_0_n_n 3 rfl rfl k
  have el : dot_S256x3_S8192x3_S256x8192_1_1_0_0_n_n.lhsIdx (ix2 r q) ((contrEquiv1 dot_S256x3_S8192x3_S256x8192_1_1_0_0_n_n 3 rfl rfl).symm k) = ix2 r k := funext fun a => Fin.ext (by
    match a with
    | ⟨0, _⟩ => exact lhs_dot_0 _ _
    | ⟨1, _⟩ => exact (lhs_dot_1 _ _).trans hk)
  have er : dot_S256x3_S8192x3_S256x8192_1_1_0_0_n_n.rhsIdx (ix2 r q) ((contrEquiv1 dot_S256x3_S8192x3_S256x8192_1_1_0_0_n_n 3 rfl rfl).symm k) = ix2 q k := funext fun a => Fin.ext (by
    match a with
    | ⟨0, _⟩ => exact rhs_dot_0 _ _
    | ⟨1, _⟩ => exact (rhs_dot_1 _ _).trans hk)
  rw [el, er]

/-! ## The squared norms, spread over the block -/

/-- The index of a row sum with its summed coordinate put back. -/
theorem lift_row_256 (r : Fin 256) (k : Fin 3) : reduces_S256x3_S256.lift (ix1 r) k = ix2 r k :=
  funext fun a => Fin.ext (by match a with | ⟨0, _⟩ => rfl | ⟨1, _⟩ => rfl)
/-- The same over the block of 8192 rows. -/
theorem lift_row_8192 (q : Fin 8192) (k : Fin 3) : reduces_S8192x3_S8192.lift (ix1 q) k = ix2 q k :=
  funext fun a => Fin.ext (by match a with | ⟨0, _⟩ => rfl | ⟨1, _⟩ => rfl)

/-- The squared norms of the left block's rows, as a column spread over every column: at `(r, q)` the squared norm of
    row `r`. -/
theorem rowNorm_rq (A : FVec Ideal S256x3 .f32) (r : Fin 256) (q : Fin 8192) :
    broadcastTo S256x8192
        (shapeCast S256x1 (multiReduction (F := Ideal) .add [1] S256 (mulf A A) 0x00000000#32 reduces_S256x3_S256 (.inl rfl) rfl)
          shapeCasts_S256_S256x1)
        broadcasts_S256x1_S256x8192 (ix2 r q)
      = ∑ k : Fin 3, A (ix2 r k) * A (ix2 r k) := by
  refine (broadcastTo_a1_ab_apply _ _ r q).trans ?_
  refine (shapeCast_a_a1_apply _ _ r 0).trans ?_
  refine (Ideal.multiReduction_add_single _ _ _ _ _ _).trans ?_
  refine Finset.sum_congr rfl fun k _ => ?_
  exact congrArg (fun i => A i * A i) (lift_row_256 r k)

/-- The squared norms of the right block's rows, as a row spread over every row: at `(r, q)` the squared norm of
    row `q`. -/
theorem colNorm_rq (B : FVec Ideal S8192x3 .f32) (r : Fin 256) (q : Fin 8192) :
    broadcastTo S256x8192
        (shapeCast S1x8192 (multiReduction (F := Ideal) .add [1] S8192 (mulf B B) 0x00000000#32 reduces_S8192x3_S8192 (.inl rfl) rfl)
          shapeCasts_S8192_S1x8192)
        broadcasts_S1x8192_S256x8192 (ix2 r q)
      = ∑ k : Fin 3, B (ix2 q k) * B (ix2 q k) := by
  refine (broadcastTo_1b_ab_apply _ _ r q).trans ?_
  refine (shapeCast_a_1a_apply _ _ 0 q).trans ?_
  refine (Ideal.multiReduction_add_single _ _ _ _ _ _).trans ?_
  refine Finset.sum_congr rfl fun k _ => ?_
  exact congrArg (fun i => B i * B i) (lift_row_8192 q k)

/-! ## The two minima's indices -/

/-- The index of a row minimum with its column put back. -/
theorem lift_min_row (r : Fin 256) (q : Fin 8192) : reduces_S256x8192_S256.lift (ix1 r) q = ix2 r q :=
  funext fun a => Fin.ext (by match a with | ⟨0, _⟩ => rfl | ⟨1, _⟩ => rfl)
/-- The index of a column minimum with its row put back. -/
theorem lift_min_col (q : Fin 8192) (r : Fin 256) : reduces_S256x8192_S8192.lift (ix1 q) r = ix2 r q :=
  funext fun a => Fin.ext (by match a with | ⟨0, _⟩ => rfl | ⟨1, _⟩ => rfl)

/-! ## The body's values, read at an index -/

/-- The squared distance, in its expanded form, of row `r` of a block of 256 points and row `q` of a block of 8192. -/
def bdist (x0 : FVec Ideal S1x256x3 .f32) (x1 : FVec Ideal S1x8192x3 .f32) (r : Fin 256) (q : Fin 8192) : EReal :=
  ((∑ k : Fin 3, x0 (ix3 (0 : Fin 1) r k) * x0 (ix3 (0 : Fin 1) r k))
      + (∑ k : Fin 3, x1 (ix3 (0 : Fin 1) q k) * x1 (ix3 (0 : Fin 1) q k)))
    - two * ∑ k : Fin 3, x0 (ix3 (0 : Fin 1) r k) * x1 (ix3 (0 : Fin 1) q k)

/-- The block of distances at `(r, q)`. -/
theorem pay2_apply (x0 : FVec Ideal S1x256x3 .f32) (x1 : FVec Ideal S1x8192x3 .f32) (r : Fin 256) (q : Fin 8192) :
    k0_pay2 (F := Ideal) x0 x1 (ix2 r q) = bdist x0 x1 r q := by
  have e4 : ∀ k, shapeCast S256x3 x0 shapeCasts_S1x256x3_S256x3 (ix2 r k) = x0 (ix3 (0 : Fin 1) r k) :=
    fun k => shapeCast_1ab_ab_apply x0 _ r k
  have e6 : ∀ k, shapeCast S8192x3 x1 shapeCasts_S1x8192x3_S8192x3 (ix2 q k) = x1 (ix3 (0 : Fin 1) q k) :=
    fun k => shapeCast_1ab_ab_apply x1 _ q k
  have h1 := rowNorm_rq (shapeCast S256x3 x0 shapeCasts_S1x256x3_S256x3) r q
  have h2 := colNorm_rq (shapeCast S8192x3 x1 shapeCasts_S1x8192x3_S8192x3) r q
  have h3 := matmul_rq (shapeCast S256x3 x0 shapeCasts_S1x256x3_S256x3) (shapeCast S8192x3 x1 shapeCasts_S1x8192x3_S8192x3) r q
  simp only [e4, e6] at h1 h2 h3
  unfold k0_pay2 bdist
  exact congrArg₂ (· - ·) (congrArg₂ (· + ·) h1 h2) (congrArg (two * ·) h3)

/-- What the body stores for the points of `x`: each row's minimum, from the starting value. -/
theorem pay3_apply (x0 : FVec Ideal S1x256x3 .f32) (x1 : FVec Ideal S1x8192x3 .f32) (u v : Fin 1) (r : Fin 256) :
    k0_pay3 (F := Ideal) x0 x1 (ix3 u v r)
      = (Finset.univ : Finset (Fin 8192)).fold min top (fun q => bdist x0 x1 r q) := by
  unfold k0_pay3
  refine (shapeCast_a_11a_apply _ _ u v r).trans ?_
  refine (multiReduction_minimumf_single _ _ _ _ _ _).trans ?_
  refine Finset.fold_congr fun q _ => ?_
  exact (congrArg (k0_pay2 (F := Ideal) x0 x1) (lift_min_row r q)).trans (pay2_apply x0 x1 r q)

/-- What the body stores into its scratch: the running minimum `xs` it found there and each column's minimum, from the
    starting value. -/
theorem pay4_apply (x0 : FVec Ideal S1x256x3 .f32) (x1 : FVec Ideal S1x8192x3 .f32) (xs : FVec Ideal S8192 .f32) (q : Fin 8192) :
    k0_pay4 (F := Ideal) x0 x1 xs (ix1 q)
      = min (xs (ix1 q)) ((Finset.univ : Finset (Fin 256)).fold min top (fun r => bdist x0 x1 r q)) := by
  unfold k0_pay4
  refine (congrFun (shapeCast_self _ _) (ix1 q)).trans ?_
  refine congrArg (min (xs (ix1 q))) ?_
  refine (multiReduction_minimumf_single _ _ _ _ _ _).trans ?_
  refine Finset.fold_congr fun r _ => ?_
  exact (congrArg (k0_pay2 (F := Ideal) x0 x1) (lift_min_col q r)).trans (pay2_apply x0 x1 r q)

/-- What the body stores for the points of `y` at a batch's last grid point: the scratch, re-laid. -/
theorem pay5_apply (xs : FVec Ideal S8192 .f32) (u v : Fin 1) (q : Fin 8192) :
    k0_pay5 (F := Ideal) xs (ix3 u v q) = xs (ix1 q) := by
  unfold k0_pay5
  exact shapeCast_a_11a_apply xs _ u v q

/-- What the body resets its scratch to at a batch's first grid point: the starting value everywhere. -/
theorem pay1_apply (q : Fin 8192) : k0_pay1 (F := Ideal) (ix1 q) = top := by
  unfold k0_pay1
  exact congrFun (shapeCast_self _ _) (ix1 q)

end Cert.KernelIdeal.Pay

end
-- ==== Proof.Blocks.lean ====
/-
  The input blocks of a grid point, read as entries of the whole arrays.

  The grid's 128 points are (batch, row tile) = (t / 32, t % 32) in row-major order. At point `t` the kernel holds
  rows `256 (t % 32) … 256 (t % 32) + 255` of batch `t / 32` of `x` and all 8192 rows of the same batch of `y`.
-/
import proofs.«125143_j65266323030088_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block of `x` and the block of `y` at a grid point, and the two arrays, at their literal types. -/
abbrev xblk (c : Dev nD) (t : Fin cfg0.N) : Vec F S1x256x3 .f32 := iblk m c 0 t
abbrev yblk (c : Dev nD) (t : Fin cfg0.N) : Vec F S1x8192x3 .f32 := iblk m c 1 t
abbrev xarr (c : Dev nD) : Vec F S4x8192x3 .f32 := V m c main_arg0
abbrev yarr (c : Dev nD) : Vec F S4x8192x3 .f32 := V m c main_arg1

theorem xarr_eq (c : Dev nD) : xarr m c = m ((c : Thread nD τ).loc main_arg0) := V_main_arg0 m c
theorem yarr_eq (c : Dev nD) : yarr m c = m ((c : Thread nD τ).loc main_arg1) := V_main_arg1 m c

/-- The grid has 128 points. -/
theorem lt_128 (t : Fin cfg0.N) : t.val < 128 := lt_of_lt_of_eq t.isLt (show cfg0.N = 128 from N_0)

/-- The printed index maps, decided once over the grid: batch `t / 32` on the leading axis of every window, row tile
    `t % 32` on the point axis of the windows that move with the tile, block 0 elsewhere. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = t.val % 32
    ∧ win0_3.index t (0 : Fin 3) = t.val / 32 ∧ win0_3.index t (1 : Fin 3) = 0 ∧ win0_3.index t (2 : Fin 3) = 0 :=
  (by decide +kernel : ∀ t : Fin grid0.N, _)

/-- Row `r` of the block of `x` is row `256 (t % 32) + r` of batch `t / 32`. -/
theorem xblk_apply (c : Dev nD) (t : Fin cfg0.N) (u : Fin 1) (r : Fin 256) (k : Fin 3) :
    xblk m c t (ix3 u r k)
      = xarr m c (ix3 (⟨t.val / 32, by have := lt_128 t; omega⟩ : Fin 4)
          (⟨256 * (t.val % 32) + r.val, by have := r.isLt; omega⟩ : Fin 8192) k) := by
  obtain ⟨e0, e1, e2, -⟩ := idx_facts t
  unfold xblk iblk
  rw [View.read_apply]
  show V m c main_arg0 _ = V m c main_arg0 _
  congr 1
  funext a
  apply Fin.ext
  match a with
  | ⟨0, _⟩ => show win0_0.index t (0 : Fin 3) * 1 + 1 * u.val = t.val / 32; have := u.isLt; omega
  | ⟨1, _⟩ => show win0_0.index t (1 : Fin 3) * 256 + 1 * r.val = 256 * (t.val % 32) + r.val; omega
  | ⟨2, _⟩ => show win0_0.index t (2 : Fin 3) * 3 + 1 * k.val = k.val; omega

/-- Row `q` of the block of `y` is row `q` of batch `t / 32`. -/
theorem yblk_apply (c : Dev nD) (t : Fin cfg0.N) (u : Fin 1) (q : Fin 8192) (k : Fin 3) :
    yblk m c t (ix3 u q k) = yarr m c (ix3 (⟨t.val / 32, by have := lt_128 t; omega⟩ : Fin 4) q k) := by
  obtain ⟨-, -, -, e0, e1, e2, -⟩ := idx_facts t
  unfold yblk iblk
  rw [View.read_apply]
  show V m c main_arg1 _ = V m c main_arg1 _
  congr 1
  funext a
  apply Fin.ext
  match a with
  | ⟨0, _⟩ => show win0_1.index t (0 : Fin 3) * 1 + 1 * u.val = t.val / 32; have := u.isLt; omega
  | ⟨1, _⟩ => show win0_1.index t (1 : Fin 3) * 8192 + 1 * q.val = q.val; omega
  | ⟨2, _⟩ => show win0_1.index t (2 : Fin 3) * 3 + 1 * k.val = k.val; omega

end Cert.KernelIdeal.Blocks

end
-- ==== Proof.Invariant.lean ====
/-
  What the kernel's staging buffers and its scratch hold after every grid point, at the ideal values.

  Write a grid point as (batch b, row tile i). After it,
    * the block of row minima holds, for each of the tile's 256 points of `x`, the least distance to a point of `y`
      (`rows_eq`: the whole of `y`'s batch is present at every point, so nothing is carried);
    * the scratch holds the column minimum of batch b over the first `256 (i + 1)` points of `x` (`acc_eq`, by
      induction over the points: the first tile of a batch folds its column minima into the starting value, which is
      the minimum over no points at all; every later tile folds its own into what the tile before left);
    * at the last tile of a batch the block of column minima holds the scratch as just stored, which is the minimum over
      all 8192 points (`last_eq`).
-/
import proofs.«125143_j65266323030088_1_alg».proof.Proof.Pieces
import proofs.«125143_j65266323030088_1_alg».proof.Proof.Payload
import proofs.«125143_j65266323030088_1_alg».proof.Proof.Blocks
import proofs.«125143_j65266323030088_1_alg».proof.Proof.Spec

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Blocks Cert.KernelIdeal.Pay Cert.KernelIdeal.Pieces Cert.Chamfer

variable (m : (ℓ : Loc nD τ sig) → Buf (Elt Ideal) ℓ)

/-- A distance between rows of the two blocks of point `t` is the distance between the points of the arrays they hold. -/
theorem bdist_eq (c : Dev nD) (t : Fin cfg0.N) (b : Fin 4) (i : ℕ) (hb : t.val / 32 = b.val) (hi : t.val % 32 = i)
    (r : Fin 256) (q : Fin 8192) :
    bdist (xblk m c t) (yblk m c t) r q
      = dist (xarr m c) (yarr m c) b ⟨256 * i + r.val, by have := r.isLt; omega⟩ q := by
  subst hi
  obtain ⟨bv, hbv⟩ := b
  dsimp only at hb
  subst hb
  unfold bdist Cert.Chamfer.dist sqn dot
  simp only [xblk_apply, yblk_apply]

/-- The row minima of point `t`'s tile. -/
theorem rows_pay (c : Dev nD) (t : Fin cfg0.N) (b : Fin 4) (i : ℕ) (hb : t.val / 32 = b.val) (hi : t.val % 32 = i)
    (u v : Fin 1) (r : Fin 256) :
    k0_pay3 (F := Ideal) (xblk m c t) (yblk m c t) (ix3 u v r)
      = rowMin (xarr m c) (yarr m c) (ix2 b ⟨256 * i + r.val, by have := r.isLt; omega⟩) := by
  rw [pay3_apply]
  unfold rowMin
  exact Finset.fold_congr (fun q _ => bdist_eq m c t b i hb hi r q)

theorem rows_eq (c : Dev nD) (t : Fin cfg0.N) (b : Fin 4) (i : ℕ) (hb : t.val / 32 = b.val) (hi : t.val % 32 = i)
    (u v : Fin 1) (r : Fin 256) :
    (outsAt0 m c t.val t.isLt).1 (ix3 u v r)
      = rowMin (xarr m c) (yarr m c) (ix2 b ⟨256 * i + r.val, by have := r.isLt; omega⟩) := by
  by_cases h0 : t.val % 32 = 0
  · have h1 : ¬t.val % 32 = 31 := by omega
    rw [outsAt0_A m c t h0 h1]
    dsimp only
    exact (congrFun (out_A_2 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (xblk m c t) (yblk m c t)) (ix3 u v r)).trans
      (rows_pay m c t b i hb hi u v r)
  · by_cases h1 : t.val % 32 = 31
    · rw [outsAt0_C m c t h0 h1]
      dsimp only
      exact (congrFun (out_C_2 (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (xblk m c t) (yblk m c t) _) (ix3 u v r)).trans
        (rows_pay m c t b i hb hi u v r)
    · rw [outsAt0_B m c t h0 h1]
      dsimp only
      exact (congrFun (out_B_2 (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (fun hh => h1 ((hcond0_1 t).mp hh)) (xblk m c t) (yblk m c t) _) (ix3 u v r)).trans
        (rows_pay m c t b i hb hi u v r)

/-- ONE FOLDING STEP: if the scratch holds the column minimum over the first `256 i` points, the body's update leaves
    the minimum over the first `256 (i + 1)`. -/
theorem fold_step (c : Dev nD) (t : Fin cfg0.N) (b : Fin 4) (i : ℕ) (hb : t.val / 32 = b.val) (hi : t.val % 32 = i)
    (xs : FVec Ideal S8192 .f32) (q : Fin 8192)
    (hxs : xs (ix1 q) = accUpTo (xarr m c) (yarr m c) b (256 * i) (ix1 q)) :
    k0_pay4 (F := Ideal) (xblk m c t) (yblk m c t) xs (ix1 q)
      = accUpTo (xarr m c) (yarr m c) b (256 * (i + 1)) (ix1 q) := by
  rw [pay4_apply, hxs]
  have hf : (Finset.univ : Finset (Fin 256)).fold min top (fun r => bdist (xblk m c t) (yblk m c t) r q)
      = (Finset.univ : Finset (Fin 256)).fold min top
          (fun r => dist (xarr m c) (yarr m c) b ⟨256 * i + r.val, by have := r.isLt; omega⟩ ((ix1 q : Acc.Idx) 0)) :=
    Finset.fold_congr (fun r _ => bdist_eq m c t b i hb hi r q)
  rw [hf]
  exact acc_step (xarr m c) (yarr m c) b i (by omega) (ix1 q)

/-- THE RUNNING COLUMN MINIMUM after every point, by induction over the points. -/
theorem acc_eq (c : Dev nD) : ∀ (n : ℕ) (h : n < cfg0.N) (b : Fin 4) (i : ℕ), n / 32 = b.val → n % 32 = i → ∀ q : Fin 8192,
    (outsAt0 m c n h).2.2 (ix1 q) = accUpTo (xarr m c) (yarr m c) b (256 * (i + 1)) (ix1 q) := by
  intro n
  induction n using Nat.strong_induction_on with
  | _ n ih =>
    intro h b i hb hi q
    have hN : n < 128 := lt_of_lt_of_eq h (show cfg0.N = 128 from N_0)
    by_cases h0 : n % 32 = 0
    · have h1 : ¬n % 32 = 31 := by omega
      have hi0 : i = 0 := by omega
      subst hi0
      rw [outsAt0_A m c ⟨n, h⟩ h0 h1]
      dsimp only
      refine (congrFun (sout_A_0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (xblk m c ⟨n, h⟩) (yblk m c ⟨n, h⟩)) (ix1 q)).trans ?_
      exact fold_step m c ⟨n, h⟩ b 0 hb hi _ q ((pay1_apply q).trans (accUpTo_zero _ _ b (ix1 q)).symm)
    · obtain ⟨k, rfl⟩ : ∃ k, n = k + 1 := ⟨n - 1, by omega⟩
      have hxs : (outsAt0 m c k (Nat.lt_of_succ_lt h)).2.2 (ix1 q)
          = accUpTo (xarr m c) (yarr m c) b (256 * i) (ix1 q) := by
        have e := ih k (Nat.lt_succ_self k) (Nat.lt_of_succ_lt h) b (k % 32) (by omega) rfl q
        rw [show 256 * (k % 32 + 1) = 256 * i by omega] at e
        exact e
      by_cases h1 : (k + 1) % 32 = 31
      · rw [outsAt0_C m c ⟨k + 1, h⟩ h0 h1]
        dsimp only
        refine (congrFun (sout_C_0 (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) (fun hh => h0 ((hcond0_0 ⟨k + 1, h⟩).mp hh)) ((hcond0_1 ⟨k + 1, h⟩).mpr h1) (xblk m c ⟨k + 1, h⟩) (yblk m c ⟨k + 1, h⟩)
          (outsAt0 m c k (Nat.lt_of_succ_lt h)).2.2) (ix1 q)).trans ?_
        exact fold_step m c ⟨k + 1, h⟩ b i hb hi _ q hxs
      · rw [outsAt0_B m c ⟨k + 1, h⟩ h0 h1]
        dsimp only
        refine (congrFun (sout_B_0 (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) (fun hh => h0 ((hcond0_0 ⟨k + 1, h⟩).mp hh)) (fun hh => h1 ((hcond0_1 ⟨k + 1, h⟩).mp hh)) (xblk m c ⟨k + 1, h⟩) (yblk m c ⟨k + 1, h⟩)
          (outsAt0 m c k (Nat.lt_of_succ_lt h)).2.2) (ix1 q)).trans ?_
        exact fold_step m c ⟨k + 1, h⟩ b i hb hi _ q hxs

/-- At the last tile of a batch the block of column minima is the scratch as just stored: the minimum over every point. -/
theorem last_eq (c : Dev nD) (t : Fin cfg0.N) (b : Fin 4) (hb : t.val / 32 = b.val) (h1 : t.val % 32 = 31)
    (u v : Fin 1) (q : Fin 8192) :
    (outsAt0 m c t.val t.isLt).2.1 (ix3 u v q) = colMin (xarr m c) (yarr m c) (ix2 b q) := by
  have h0 : ¬t.val % 32 = 0 := by omega
  have hacc := acc_eq m c t.val t.isLt b 31 hb h1 q
  rw [outsAt0_C m c t h0 h1] at hacc ⊢
  dsimp only at hacc ⊢
  refine (congrFun (out_C_3 (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (xblk m c t) (yblk m c t) _) (ix3 u v q)).trans ?_
  rw [pay5_apply]
  refine ((congrFun (sout_C_0 (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (xblk m c t) (yblk m c t) _) (ix1 q)).symm.trans hacc).trans ?_
  exact accUpTo_full _ _ b q

end Cert.KernelIdeal.Inv

end
-- ==== Proof.KernelValue.lean ====
/-
  The kernel's run, read as a value at the ideal values.

  Every grid point writes its block of row minima back, and the 128 blocks tile the [4, 1, 8192] array: entry
  (b, 0, n) lies in the block of point `32 b + n / 256`. The block of column minima is written back at the last tile of
  each batch only, and those four blocks tile their array: entry (b, 0, q) lies in the block of point `32 b + 31`. So
  the two arrays end holding `rowMin` and `colMin` of the clouds, laid out with a unit middle axis; the host lines after
  the region drop that axis and take the two means and their sum, which is `tail`.
-/
import proofs.«125143_j65266323030088_1_alg».proof.Proof.Invariant
import Idealize.ShloMosaic.Lib.Pipeline.Value
import Idealize.ShloMosaic.Lib.StableHlo.Run
import Idealize.ShloMosaic.Lib.Tactic

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Inv Cert.Chamfer

variable (m : (ℓ : Loc nD τ sig) → Buf (Elt Ideal) ℓ) (ρ : Dev nD → PrngReg)

/-- The row minima and the column minima as the kernel lays them out: [4, 1, 8192]. -/
abbrev G2 (c : Dev nD) : S4x1x8192.Idx → EReal :=
  fun i => rowMin (xarr m c) (yarr m c) (ix2 (⟨(i 0).val, (i 0).isLt⟩ : Fin 4) (⟨(i 2).val, (i 2).isLt⟩ : Fin 8192))
abbrev G3 (c : Dev nD) : S4x1x8192.Idx → EReal :=
  fun i => colMin (xarr m c) (yarr m c) (ix2 (⟨(i 0).val, (i 0).isLt⟩ : Fin 4) (⟨(i 2).val, (i 2).isLt⟩ : Fin 8192))

/-! ## What the write-backs hold -/

/-- Point `t` writes back block `t` of the row minima. -/
theorem flushed2_eq (c : Dev nD) (t : Fin cfg0.N) :
    (dats m 0 c).flushed 2 t = ((cfg0.win 2).blk t).view.read (Elt Ideal) (G2 m c) := by
  obtain ⟨-, -, -, -, -, -, e0, e1, e2, -⟩ := idx_facts t
  have hN := lt_128 t
  show (cfg0.win 2).cut (grid0.coords t) ((dats m 0 c).after 2 t) = _
  rw [after0_2]
  funext j
  obtain ⟨u, v, r, rfl⟩ : ∃ (u v : Fin 1) (r : Fin 256), j = ix3 u v r := ⟨j 0, j 1, j 2, eq_ix3 j⟩
  show (outsAt0 m c t.val t.isLt).1 (ix3 u v r) = G2 m c (((cfg0.win 2).blk t).view.emb (ix3 u v r))
  rw [rows_eq m c t ⟨t.val / 32, by omega⟩ (t.val % 32) rfl rfl u v r]
  refine congrArg (rowMin (xarr m c) (yarr m c)) (funext fun a => Fin.ext ?_)
  match a with
  | ⟨0, _⟩ => show t.val / 32 = win0_2.index t (0 : Fin 3) * 1 + 1 * u.val; have := u.isLt; omega
  | ⟨1, _⟩ => show 256 * (t.val % 32) + r.val = win0_2.index t (2 : Fin 3) * 256 + 1 * r.val; omega

/-- The last tile of a batch writes back the batch's column minima. -/
theorem flushed3_eq (c : Dev nD) (t : Fin cfg0.N) (hf : (cfg0.win 3).flush t = true) :
    (dats m 0 c).flushed 3 t = ((cfg0.win 3).blk t).view.read (Elt Ideal) (G3 m c) := by
  obtain ⟨-, -, -, -, -, -, -, -, -, e0, e1, e2⟩ := idx_facts t
  have hN := lt_128 t
  have h31 : t.val % 32 = 31 := (flush0_3 t).mp hf
  show (cfg0.win 3).cut (grid0.coords t) ((dats m 0 c).after 3 t) = _
  rw [after0_3]
  funext j
  obtain ⟨u, v, q, rfl⟩ : ∃ (u v : Fin 1) (q : Fin 8192), j = ix3 u v q := ⟨j 0, j 1, j 2, eq_ix3 j⟩
  show (outsAt0 m c t.val t.isLt).2.1 (ix3 u v q) = G3 m c (((cfg0.win 3).blk t).view.emb (ix3 u v q))
  rw [last_eq m c t ⟨t.val / 32, by omega⟩ rfl h31 u v q]
  refine congrArg (colMin (xarr m c) (yarr m c)) (funext fun a => Fin.ext ?_)
  match a with
  | ⟨0, _⟩ => show t.val / 32 = win0_3.index t (0 : Fin 3) * 1 + 1 * u.val; have := u.isLt; omega
  | ⟨1, _⟩ => show q.val = win0_3.index t (2 : Fin 3) * 8192 + 1 * q.val; omega

/-! ## The blocks tile the arrays -/

/-- An entry is in point `t`'s block of row minima iff each coordinate is in the block's range. -/
theorem mem_blk2 (t : Fin cfg0.N) (i : S4x1x8192.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v0_0).slice (win0_2.rect t)).set ↔ _
  rw [View.set_slice_whole, Rect.mem_set_unit]
  exact Iff.rfl

theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

theorem cover2 (i : S4x1x8192.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  let t : Fin cfg0.N := ⟨32 * (i 0).val + (i 2).val / 256, lt_of_lt_of_eq (by omega) N_0.symm⟩
  obtain ⟨-, -, -, -, -, -, e0, e1, e2, -⟩ := idx_facts t
  have tv : t.val = 32 * (i 0).val + (i 2).val / 256 := rfl
  refine ⟨t, flush0_2 t, (mem_blk2 t i).2 fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 256 ≤ (i 2).val ∧ (i 2).val < win0_2.index t (2 : Fin 3) * 256 + 256; omega

theorem cover3 (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  let t : Fin cfg0.N := ⟨32 * (i 0).val + 31, lt_of_lt_of_eq (by omega) N_0.symm⟩
  obtain ⟨-, -, -, -, -, -, -, -, -, e0, e1, e2⟩ := idx_facts t
  have tv : t.val = 32 * (i 0).val + 31 := rfl
  refine ⟨t, (flush0_3 t).mpr (by omega), (mem_blk3 t i).2 fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The two arrays after the run. -/
theorem final2 (c : Dev nD) : (dats m 0 c).arrAt 2 cfg0.N = G2 m c :=
  (dats m 0 c).arrAt_eq_of_cover 2 (G2 m c) (fun t _ => flushed2_eq m c t) (cover2)

theorem final3 (c : Dev nD) : (dats m 0 c).arrAt 3 cfg0.N = G3 m c :=
  (dats m 0 c).arrAt_eq_of_cover 3 (G3 m c) (fun t hf => flushed3_eq m c t hf) (cover3)

/-! ## The host lines after the region -/

/-- Dropping the unit axis of the laid-out minima gives the arrays of minima themselves. -/
theorem cast_G2 (c : Dev nD) : shapeCast S4x8192 (G2 m c) shapeCasts_S4x1x8192_S4x8192 = rowMin (xarr m c) (yarr m c) := by
  funext j
  obtain ⟨b, n, rfl⟩ : ∃ (b : Fin 4) (n : Fin 8192), j = ix2 b n := ⟨j 0, j 1, eq_ix2 j⟩
  refine (shapeCast_apply (G2 m c) shapeCasts_S4x1x8192_S4x8192 (ix2 b n) (ix3 b (0 : Fin 1) n) ?_).trans rfl
  rw [Shape.rowMajor_val_three, Shape.rowMajor_val_two]
  show (b.val * 1 + 0) * 8192 + n.val = b.val * 8192 + n.val
  omega

theorem cast_G3 (c : Dev nD) : shapeCast S4x8192 (G3 m c) shapeCasts_S4x1x8192_S4x8192 = colMin (xarr m c) (yarr m c) := by
  funext j
  obtain ⟨b, n, rfl⟩ : ∃ (b : Fin 4) (n : Fin 8192), j = ix2 b n := ⟨j 0, j 1, eq_ix2 j⟩
  refine (shapeCast_apply (G3 m c) shapeCasts_S4x1x8192_S4x8192 (ix2 b n) (ix3 b (0 : Fin 1) n) ?_).trans rfl
  rw [Shape.rowMajor_val_three, Shape.rowMajor_val_two]
  show (b.val * 1 + 0) * 8192 + n.val = b.val * 8192 + n.val
  omega

/-- The program's result after the host lines: the two means of the minima, added. -/
theorem result_eq (c : Dev nD) :
    Pipeline.afterTail₀ cfgs (dats m) 0 (V0 m) [hostOps1] c main_v7
      = tail reducesTo_S4x8192_S_d0_1 h_S_ (rowMin (xarr m c) (yarr m c)) (colMin (xarr m c) (yarr m c)) := by
  unfold Pipeline.afterTail₀
  show StableHlo.after hostOps1 _ (Proc.devRef .tc main_v7) = _
  after_results
  have e2 : Pipeline.withArrays (cfgs 0).spec c (V0 m c) (fun w => (dats m 0 c).arrAt w (cfgs 0).N) (Proc.devRef .tc main_v0_0)
      = G2 m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = G3 m c := (Pipeline.withArrays_arr spec0 launch0.win.arr_inj c _ _ 3).trans (final3 m c)
  rw [e2, e3]
  show tail reducesTo_S4x8192_S_d0_1 h_S_ (shapeCast S4x8192 (G2 m c) shapeCasts_S4x1x8192_S4x8192)
    (shapeCast S4x8192 (G3 m c) shapeCasts_S4x1x8192_S4x8192) = _
  rw [cast_G2, cast_G3]

/-! ## The run, read -/

/-- Every weakly fair execution of the idealized kernel's program ends with its result at the two means of the minima
    of the argument arrays, added, and the arguments unchanged. -/
theorem run : θ_run defs (onTc (τ := τ) (main (F := Ideal))) ⟨m, fun _ => 0, ρ⟩ fun r => ∀ c : Dev nD,
      r.2.mem ((c.tc : Thread nD τ).loc main_v7)
        = tail reducesTo_S4x8192_S_d0_1 h_S_
            (rowMin (m ((c.tc : Thread nD τ).loc main_arg0)) (m ((c.tc : Thread nD τ).loc main_arg1)))
            (colMin (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v7 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The proof of `Cert.Claim`: the kernel and the reference compute one function of the two clouds.

  For clouds `x`, `y` of 8192 points in three coordinates (four batches) both programs form the expanded squared
  distances `(|x_p|² + |y_q|²) - 2 · ⟨x_p, y_q⟩`, take for every point of `x` the least distance to a point of `y` and for
  every point of `y` the least distance to a point of `x`, and add the means of the two arrays of minima.
  The reference does it on whole [4, 8192, 8192] arrays. The kernel walks a grid of (batch, tile of 256 points of `x`):
  a tile sees all of `y`'s batch, so its row minima are final; its column minima are folded into a running minimum
  that the first tile of a batch starts afresh and the last tile writes out. Over the extended reals `min` is
  commutative, associative and idempotent, so the minimum over 8192 rows taken 256 at a time is the minimum over all of
  them (Proof/Spec.lean, `acc_step`); every other step is the same operation on both sides, and the same words for +∞, 2
  and 32768 stand on both sides and are never evaluated. Nothing needs the inputs to be finite.

  The three frames: the two kernels' are the generated frame certificates; the reference has no kernel, and its frame is
  its run with the result dropped. The ideal pass rewrote nothing, so `preserves` is `True`.
  `algebraic`: the idealized kernel's run ends at `tail (rowMin x y) (colMin x y)` (Proof/KernelValue.lean, over the
  point-by-point contents of Proof/Invariant.lean), the reference's at the same term (Proof/RefValue.lean), of arguments
  that agree.
-/
import proofs.«125143_j65266323030088_1_alg».proof.Defs
import proofs.«125143_j65266323030088_1_alg».proof.Proof.Gen.Kernel
import proofs.«125143_j65266323030088_1_alg».proof.Proof.Gen.Kernel.Skeleton
import proofs.«125143_j65266323030088_1_alg».proof.Proof.Gen.Kernel.Launch
import proofs.«125143_j65266323030088_1_alg».proof.Proof.Gen.Kernel.Points
import proofs.«125143_j65266323030088_1_alg».proof.Proof.Gen.Kernel.Frame
import proofs.«125143_j65266323030088_1_alg».proof.Proof.Gen.KernelIdeal
import proofs.«125143_j65266323030088_1_alg».proof.Proof.Gen.KernelIdeal.Skeleton
import proofs.«125143_j65266323030088_1_alg».proof.Proof.Gen.KernelIdeal.Launch
import proofs.«125143_j65266323030088_1_alg».proof.Proof.Gen.KernelIdeal.Points
import proofs.«125143_j65266323030088_1_alg».proof.Proof.Gen.KernelIdeal.Frame
import proofs.«125143_j65266323030088_1_alg».proof.Proof.Gen.ReferenceIdeal
import proofs.«125143_j65266323030088_1_alg».proof.Proof.Gen.ReferenceIdeal.Run
import proofs.«125143_j65266323030088_1_alg».proof.Proof.Gen.ReferenceIdeal.Read
import proofs.«125143_j65266323030088_1_alg».proof.Proof.Gen.Pre_finite_inputs
import proofs.«125143_j65266323030088_1_alg».proof.Proof.RefValue
import proofs.«125143_j65266323030088_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the two means of the minima, added, of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
